-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S256x1 .f32) (main_arg10 : FVec F S1 .f32) (main_v33 : IVec S_ 1) : IVec S_ 1 :=
  let main_v34 : FVec F S256x1 .f32 := Host.absf main_arg9
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S256x128 .f32) (main_arg7 : FVec F S256x128 .f32) (main_arg8 : FVec F S128 .f32) (main_arg9 : FVec F S256x1 .f32) (main_arg10 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S600000 32) (main_arg2 : IVec S600000 32) (main_arg3 : FVec F S128x256 .f32) (main_arg4 : FVec F S128x256 .f32) (main_arg5 : FVec F S256 .f32) (main_arg6 : FVec F S256x128 .f32) (main_arg7 : FVec F S256x128 .f32) (main_arg8 : FVec F S128 .f32) (main_arg9 : FVec F S256x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S600000 : Shape := ⟨1, ![600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x256 : Shape := ⟨2, ![1, 256]⟩
abbrev S100000x256 : Shape := ⟨2, ![100000, 256]⟩
abbrev S5000x128 : Shape := ⟨2, ![5000, 128]⟩
abbrev S5000x256 : Shape := ⟨2, ![5000, 256]⟩
abbrev S600000x256 : Shape := ⟨2, ![600000, 256]⟩
abbrev S1x128 : Shape := ⟨2, ![1, 128]⟩
abbrev S128x1 : Shape := ⟨2, ![128, 1]⟩
abbrev S1x1 : Shape := ⟨2, ![1, 1]⟩
abbrev S10000x128 : Shape := ⟨2, ![10000, 128]⟩
abbrev S10000x1 : Shape := ⟨2, ![10000, 1]⟩

abbrev nBuf : Space → Nat
  | .hbm => 87
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S256x128, .f32⟩
  | .hbm, ⟨8, _⟩ => ⟨S128, .f32⟩
  | .hbm, ⟨9, _⟩ => ⟨S256x1, .f32⟩
  | .hbm, ⟨10, _⟩ => ⟨S1, .f32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .f32⟩
  | .hbm, ⟨21, _⟩ => ⟨S100000x128, .f32⟩
  | .hbm, ⟨22, _⟩ => ⟨S600000x1, .i32⟩
  | .hbm, ⟨23, _⟩ => ⟨S100000x128, .f32⟩
  | .hbm, ⟨24, _⟩ => ⟨S_, .f32⟩
  | .hbm, ⟨25, _⟩ => ⟨S600000, .f32⟩
  | .hbm, ⟨26, _⟩ => ⟨S_, .f32⟩
  | .hbm, ⟨27, _⟩ => ⟨S100000, .f32⟩
  | .hbm, ⟨28, _⟩ => ⟨S600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S1x256, .f32⟩
  | .hbm, ⟨37, _⟩ => ⟨S100000x256, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x256, .f32⟩
  | .hbm, ⟨47, _⟩ => ⟨S_, .f32⟩
  | .hbm, ⟨48, _⟩ => ⟨S100000x256, .f32⟩
  | .hbm, ⟨49, _⟩ => ⟨S600000x1, .i32⟩
  | .hbm, ⟨50, _⟩ => ⟨S100000x256, .f32⟩
  | .hbm, ⟨51, _⟩ => ⟨S_, .f32⟩
  | .hbm, ⟨52, _⟩ => ⟨S600000, .f32⟩
  | .hbm, ⟨53, _⟩ => ⟨S_, .f32⟩
  | .hbm, ⟨54, _⟩ => ⟨S100000, .f32⟩
  | .hbm, ⟨55, _⟩ => ⟨S600000x1, .i32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x256, .f32⟩
  | .hbm, ⟨62, _⟩ => ⟨S100000x256, .f32⟩
  | .hbm, ⟨63, _⟩ => ⟨S1x128, .f32⟩
  | .hbm, ⟨64, _⟩ => ⟨S100000x128, .f32⟩
  | .hbm, ⟨65, _⟩ => ⟨S_, .i32⟩
  | .hbm, ⟨66, _⟩ => ⟨S600000, .i32⟩
  | .hbm, ⟨67, _⟩ => ⟨S600000, .i1⟩
  | .hbm, ⟨68, _⟩ => ⟨S_, .i32⟩
  | .hbm, ⟨69, _⟩ => ⟨S600000, .i32⟩
  | .hbm, ⟨70, _⟩ => ⟨S600000, .i32⟩
  | .hbm, ⟨71, _⟩ => ⟨S600000, .i32⟩
  | .hbm, ⟨72, _⟩ => ⟨S600000x1, .i32⟩
  | .hbm, ⟨73, _⟩ => ⟨S600000x128, .f32⟩
  | .hbm, ⟨74, _⟩ => ⟨S_, .i32⟩
  | .hbm, ⟨75, _⟩ => ⟨S600000, .i32⟩
  | .hbm, ⟨76, _⟩ => ⟨S600000, .i1⟩
  | .hbm, ⟨77, _⟩ => ⟨S_, .i32⟩
  | .hbm, ⟨78, _⟩ => ⟨S600000, .i32⟩
  | .hbm, ⟨79, _⟩ => ⟨S600000, .i32⟩
  | .hbm, ⟨80, _⟩ => ⟨S600000, .i32⟩
  | .hbm, ⟨81, _⟩ => ⟨S600000x1, .i32⟩
  | .hbm, ⟨82, _⟩ => ⟨S600000x128, .f32⟩
  | .hbm, ⟨83, _⟩ => ⟨S128x1, .f32⟩
  | .hbm, ⟨84, _⟩ => ⟨S128x1, .f32⟩
  | .hbm, ⟨85, _⟩ => ⟨S1x1, .f32⟩
  | .hbm, ⟨86, _⟩ => ⟨S600000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S256x128, .f32⟩
  | .local _ .vmem, ⟨14, _⟩ => ⟨S256x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x1, .f32⟩
  | .local _ .vmem, ⟨23, _⟩ => ⟨S128x1, .f32⟩
  | .local _ .vmem, ⟨24, _⟩ => ⟨S1x1, .f32⟩
  | .local _ .vmem, ⟨25, _⟩ => ⟨S10000x1, .f32⟩
  | .local _ .vmem, ⟨26, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_10 : Ref sig .tc := ⟨.hbm, 65, rfl⟩
abbrev main_v42 : Ref sig .tc := ⟨.hbm, 66, rfl⟩
abbrev main_v43 : Ref sig .tc := ⟨.hbm, 67, rfl⟩
abbrev main_c_11 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_12 : Ref sig .tc := ⟨.hbm, 74, rfl⟩
abbrev main_v49 : Ref sig .tc := ⟨.hbm, 75, rfl⟩
abbrev main_v50 : Ref sig .tc := ⟨.hbm, 76, rfl⟩
abbrev main_c_13 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![60], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  shapeCasts_S128_S1x128 : S128.ShapeCasts S1x128
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S256x1_S128x1_0_0 : S256x1.Slices ![0, 0] S128x1
  slices_S256x1_S128x1_128_0 : S256x1.Slices ![128, 0] S128x1
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S5000x128_S128x256_S5000x256_1_0_0_1_n_n_wf : DotDims.WF S5000x128 S128x256 S5000x256 [1] [0] [0] [1] [] []
  gather_S100000x256_S600000x1_S600000x256_1_0_n_n_0_1_1256_wf : GatherDims.WF S100000x256 S600000x1 S600000x256 [1] [0] [] [0] [] 1 ![1, 256]
  scatter_S100000x256_S600000x1_S600000x256_1_0_0_1_wf : ScatterDims.WF S100000x256 S600000x1 S600000x256 [1] [0] [0] 1
  dot_S5000x256_S256x128_S5000x128_1_0_0_1_n_n_wf : DotDims.WF S5000x256 S256x128 S5000x128 [1] [0] [0] [1] [] []
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S100000x256.size a
  hwx0_5 : ∀ i : grid0.Coords, EltTy.bits .f32 = 32 ∨ (Rect.block (s := S100000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S100000x256.size a
  hwx1_1 : ∀ i : grid1.Coords, EltTy.bits .f32 = 32 ∨ (Rect.block (s := S100000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S600000x128.size a
  hwx2_0 : ∀ i : grid2.Coords, EltTy.bits .f32 = 32 ∨ (Rect.block (s := S600000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S600000x128.size a
  hwx2_1 : ∀ i : grid2.Coords, EltTy.bits .f32 = 32 ∨ (Rect.block (s := S600000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x1.size a ≤ S128x1.size a
  hwx2_2 : ∀ i : grid2.Coords, EltTy.bits .f32 = 32 ∨ (Rect.block (s := S128x1) S128x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x1.size a ≤ S600000x1.size a
  hwx2_5 : ∀ i : grid2.Coords, EltTy.bits .f32 = 32 ∨ (Rect.block (s := S600000x1) S10000x1.size (cc2_transform_5 i) (hinb2_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v48) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S128x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S10000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S600000 : Shape := ⟨1, ![600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S600000x256 : Shape := ⟨2, ![600000, 256]⟩
abbrev S1x128 : Shape := ⟨2, ![1, 128]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S256x128, .f32⟩
  | .hbm, ⟨8, _⟩ => ⟨S128, .f32⟩
  | .hbm, ⟨9, _⟩ => ⟨S256x1, .f32⟩
  | .hbm, ⟨10, _⟩ => ⟨S1, .f32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .f32⟩
  | .hbm, ⟨21, _⟩ => ⟨S100000x128, .f32⟩
  | .hbm, ⟨22, _⟩ => ⟨S600000x1, .i32⟩
  | .hbm, ⟨23, _⟩ => ⟨S100000x128, .f32⟩
  | .hbm, ⟨24, _⟩ => ⟨S_, .f32⟩
  | .hbm, ⟨25, _⟩ => ⟨S600000, .f32⟩
  | .hbm, ⟨26, _⟩ => ⟨S_, .f32⟩
  | .hbm, ⟨27, _⟩ => ⟨S100000, .f32⟩
  | .hbm, ⟨28, _⟩ => ⟨S600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x256, .f32⟩
  | .hbm, ⟨37, _⟩ => ⟨S100000x256, .f32⟩
  | .hbm, ⟨38, _⟩ => ⟨S100000x256, .f32⟩
  | .hbm, ⟨39, _⟩ => ⟨S1x256, .f32⟩
  | .hbm, ⟨40, _⟩ => ⟨S100000x256, .f32⟩
  | .hbm, ⟨41, _⟩ => ⟨S100000x256, .f32⟩
  | .hbm, ⟨42, _⟩ => ⟨S_, .f32⟩
  | .hbm, ⟨43, _⟩ => ⟨S100000x256, .f32⟩
  | .hbm, ⟨44, _⟩ => ⟨S100000x256, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x256, .f32⟩
  | .hbm, ⟨54, _⟩ => ⟨S_, .f32⟩
  | .hbm, ⟨55, _⟩ => ⟨S100000x256, .f32⟩
  | .hbm, ⟨56, _⟩ => ⟨S600000x1, .i32⟩
  | .hbm, ⟨57, _⟩ => ⟨S100000x256, .f32⟩
  | .hbm, ⟨58, _⟩ => ⟨S_, .f32⟩
  | .hbm, ⟨59, _⟩ => ⟨S600000, .f32⟩
  | .hbm, ⟨60, _⟩ => ⟨S_, .f32⟩
  | .hbm, ⟨61, _⟩ => ⟨S100000, .f32⟩
  | .hbm, ⟨62, _⟩ => ⟨S600000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x256, .f32⟩
  | .hbm, ⟨69, _⟩ => ⟨S100000x256, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S600000, .i32⟩
  | .hbm, ⟨78, _⟩ => ⟨S600000, .i1⟩
  | .hbm, ⟨79, _⟩ => ⟨S_, .i32⟩
  | .hbm, ⟨80, _⟩ => ⟨S600000, .i32⟩
  | .hbm, ⟨81, _⟩ => ⟨S600000, .i32⟩
  | .hbm, ⟨82, _⟩ => ⟨S600000, .i32⟩
  | .hbm, ⟨83, _⟩ => ⟨S600000x1, .i32⟩
  | .hbm, ⟨84, _⟩ => ⟨S600000x128, .f32⟩
  | .hbm, ⟨85, _⟩ => ⟨S_, .i32⟩
  | .hbm, ⟨86, _⟩ => ⟨S600000, .i32⟩
  | .hbm, ⟨87, _⟩ => ⟨S600000, .i1⟩
  | .hbm, ⟨88, _⟩ => ⟨S_, .i32⟩
  | .hbm, ⟨89, _⟩ => ⟨S600000, .i32⟩
  | .hbm, ⟨90, _⟩ => ⟨S600000, .i32⟩
  | .hbm, ⟨91, _⟩ => ⟨S600000, .i32⟩
  | .hbm, ⟨92, _⟩ => ⟨S600000x1, .i32⟩
  | .hbm, ⟨93, _⟩ => ⟨S600000x128, .f32⟩
  | .hbm, ⟨94, _⟩ => ⟨S600000x256, .f32⟩
  | .hbm, ⟨95, _⟩ => ⟨S600000x1, .f32⟩
  | .hbm, ⟨96, _⟩ => ⟨S1x1, .f32⟩
  | .hbm, ⟨97, _⟩ => ⟨S600000x1, .f32⟩
  | .hbm, ⟨98, _⟩ => ⟨S600000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_cst : Ref sig .tc := ⟨.hbm, 42, rfl⟩
abbrev main_call0_v0 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S600000x128_S600000x128_S600000x256_d1 : Shape.Concatenates [S600000x128, S600000x128] S600000x256 1
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x256_S100000x256_1_0_0_1_n_n_wf : DotDims.WF S100000x128 S128x256 S100000x256 [1] [0] [0] [1] [] []
  gather_S100000x256_S600000x1_S600000x256_1_0_n_n_0_1_1256_wf : GatherDims.WF S100000x256 S600000x1 S600000x256 [1] [0] [] [0] [] 1 ![1, 256]
  scatter_S100000x256_S600000x1_S600000x256_1_0_0_1_wf : ScatterDims.WF S100000x256 S600000x1 S600000x256 [1] [0] [0] 1
  dot_S100000x256_S256x128_S100000x128_1_0_0_1_n_n_wf : DotDims.WF S100000x256 S256x128 S100000x128 [1] [0] [0] [1] [] []
  dot_S600000x256_S256x1_S600000x1_1_0_0_1_n_n_wf : DotDims.WF S600000x256 S256x1 S600000x1 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S600000x256_S256x1_S600000x1_1_0_0_1_n_n : DotDims S600000x256 S256x1 S600000x1 where
  lhsContracting := [1]
  rhsContracting := [0]
  lhsNonContracting := [0]
  rhsNonContracting := [1]
  lhsBatch := []
  rhsBatch := []
  wf := dot_S600000x256_S256x1_S600000x1_1_0_0_1_n_n_wf

class Facts : Prop extends Facts₀ where

variable [Facts]
-- ==== Proof.Spec.lean ====
/-
  The three dense stages of the two-layer neighbourhood-mean network and its edge scorer, as whole-array functions on
  the extended reals.

  Every stage is one affine map of two row-aligned operands: entry (r, c) of the result is
      Σ_k h(r, k) · ws(k, c)  +  Σ_k a(r, k) · wn(k, c)  +  b(0, c),
  the first operand's row against one weight matrix, the second operand's row against another, and a bias row added to
  every row. Layer one follows it by the maximum with zero; layer two and the edge scorer use it bare (the edge scorer
  with one output column, its two weight matrices the upper and lower halves of one 256-row column).
-/
import Idealize.ShloMosaic.PureOps.Ideal.Laws
import Idealize.ShloMosaic.Lib.ValueIdx

noncomputable section

open scoped BigOperators

namespace Cert.Sage

open Idealize.ShloMosaic Idealize.ShloMosaic.ValueIdx

/-- `h · ws + a · wn + b`, entry by entry: the row of `h` and the row of `a` at the output's row, each contracted with the
    column of its weight matrix at the output's column, plus the bias row's entry at that column. -/
def affine (M K N : Nat) (h a : (⟨2, ![M, K]⟩ : Shape).Idx → EReal) (ws wn : (⟨2, ![K, N]⟩ : Shape).Idx → EReal)
    (b : (⟨2, ![1, N]⟩ : Shape).Idx → EReal) : (⟨2, ![M, N]⟩ : Shape).Idx → EReal :=
  fun i => ((∑ k : Fin K, h (ix2 (i 0) k) * ws (ix2 k (i 1))) + (∑ k : Fin K, a (ix2 (i 0) k) * wn (ix2 k (i 1))))
    + b (ix2 (0 : Fin 1) (i 1))

/-- Layer one on all 100000 nodes: the affine map of the node features and their neighbourhood means, then the maximum
    with zero (the zero kept as the f32 zero word's value). -/
def G0 (x a : (⟨2, ![100000, 128]⟩ : Shape).Idx → EReal) (ws wn : (⟨2, ![128, 256]⟩ : Shape).Idx → EReal)
    (b : (⟨2, ![1, 256]⟩ : Shape).Idx → EReal) : (⟨2, ![100000, 256]⟩ : Shape).Idx → EReal :=
  fun i => max (affine 100000 128 256 x a ws wn b i) (Ideal.ofBits .f32 0x00000000#32)

/-- Layer two on all 100000 nodes: the affine map of the hidden features and their neighbourhood means. -/
def G1 (h a : (⟨2, ![100000, 256]⟩ : Shape).Idx → EReal) (ws wn : (⟨2, ![256, 128]⟩ : Shape).Idx → EReal)
    (b : (⟨2, ![1, 128]⟩ : Shape).Idx → EReal) : (⟨2, ![100000, 128]⟩ : Shape).Idx → EReal :=
  affine 100000 256 128 h a ws wn b

/-- The edge scorer on all 600000 edges: the source node's row against one weight column plus the destination node's
    row against another, plus the bias. -/
def G2 (hs hd : (⟨2, ![600000, 128]⟩ : Shape).Idx → EReal) (ws wd : (⟨2, ![128, 1]⟩ : Shape).Idx → EReal)
    (b : (⟨2, ![1, 1]⟩ : Shape).Idx → EReal) : (⟨2, ![600000, 1]⟩ : Shape).Idx → EReal :=
  affine 600000 128 1 hs hd ws wd b

end Cert.Sage

end
-- ==== Proof.HostFn.lean ====
/-
  The host arithmetic between the dense stages, as functions of the arrays it reads (any float family).

  `wrapIdx`: an index column for a row lookup: a negative index counts from the end (100000 is added to it), then the
  vector is stood up as a column. `colIdx`: an index vector stood up as a column, unchanged.
  `deg`: how many edges point at each node, but at least one: ones summed into a zero vector at the destination indices,
  then the maximum with one.
  `agg128` / `agg256`: the mean over a node's incoming edges of the source rows: the rows looked up at the (wrapped) source
  indices, summed into a zero array at the destination indices, each row divided by that node's `deg`.
  `rows128`: the rows of a 128-column array looked up at (wrapped) indices.
  `biasRow…`: a bias vector as a one-row matrix; `wTop` / `wBot`: the upper and lower 128 rows of the 256-row edge weight
  column.
-/
import proofs.«153595_j31662498906598_1_alg».proof.Proof.Gen.KernelIdeal

noncomputable section

namespace Cert.KernelIdeal.HostFn

open Cert.KernelIdeal Cert.KernelIdeal.Facts₀ Cert.KernelIdeal.Facts Idealize.ShloMosaic Idealize.ShloMosaic.TcCoe

section
variable (F : FTy → Type)
/-- 32-bit integer arrays, one-bit arrays and f32 arrays of a shape. -/
abbrev IArr (s : Shape) : Type := (⟨s, .i32⟩ : BufTy).Contents (Elt F)
abbrev BArr (s : Shape) : Type := (⟨s, .i1⟩ : BufTy).Contents (Elt F)
abbrev RArr (s : Shape) : Type := (⟨s, .f32⟩ : BufTy).Contents (Elt F)
end

variable {F : FTy → Type} [FloatOps F]

def zeroIdx : IArr F S600000 := broadcastInDim S600000 ![] bcast_S_S600000 (constantI S_ 32 0#32 : IArr F S_)
def nodeCount : IArr F S600000 := broadcastInDim S600000 ![] bcast_S_S600000 (constantI S_ 32 100000#32 : IArr F S_)

def wrapIdx (x : IArr F S600000) : IArr F S600000x1 :=
  broadcastInDim S600000x1 ![0] bcast_S600000_S600000x1_0
    (select (cmpi .slt x (zeroIdx (F := F)) : BArr F S600000) (addi x (nodeCount (F := F)) : IArr F S600000) x : IArr F S600000)

def colIdx (x : IArr F S600000) : IArr F S600000x1 :=
  broadcastInDim S600000x1 ![0] bcast_S600000_S600000x1_0 x

def deg (x2 : IArr F S600000) : RArr F S100000 :=
  maximumf
    (Host.scatterAdd scatter_S100000_S600000x1_S600000_n_0_0_1
      (broadcastInDim S100000 ![] bcast_S_S100000 (constant S_ .f32 0x00000000#32 : RArr F S_) : RArr F S100000)
      (colIdx x2)
      (broadcastInDim S600000 ![] bcast_S_S600000 (constant S_ .f32 0x3F800000#32 : RArr F S_) : RArr F S600000) : RArr F S100000)
    (broadcastInDim S100000 ![] bcast_S_S100000 (constant S_ .f32 0x3F800000#32 : RArr F S_) : RArr F S100000)

def agg128 (h : RArr F S100000x128) (x1 x2 : IArr F S600000) : RArr F S100000x128 :=
  Host.divf
    (Host.scatterAdd scatter_S100000x128_S600000x1_S600000x128_1_0_0_1
      (broadcastInDim S100000x128 ![] bcast_S_S100000x128 (constant S_ .f32 0x00000000#32 : RArr F S_) : RArr F S100000x128)
      (colIdx x2)
      (Host.gather gather_S100000x128_S600000x1_S600000x128_1_0_n_n_0_1_1128 h (wrapIdx x1) : RArr F S600000x128) : RArr F S100000x128)
    (broadcastInDim S100000x128 ![0, 1] bcast_S100000x1_S100000x128_0_1
      (broadcastInDim S100000x1 ![0] bcast_S100000_S100000x1_0 (deg x2) : RArr F S100000x1) : RArr F S100000x128)

def agg256 (h : RArr F S100000x256) (x1 x2 : IArr F S600000) : RArr F S100000x256 :=
  Host.divf
    (Host.scatterAdd scatter_S100000x256_S600000x1_S600000x256_1_0_0_1
      (broadcastInDim S100000x256 ![] bcast_S_S100000x256 (constant S_ .f32 0x00000000#32 : RArr F S_) : RArr F S100000x256)
      (colIdx x2)
      (Host.gather gather_S100000x256_S600000x1_S600000x256_1_0_n_n_0_1_1256 h (wrapIdx x1) : RArr F S600000x256) : RArr F S100000x256)
    (broadcastInDim S100000x256 ![0, 1] bcast_S100000x1_S100000x256_0_1
      (broadcastInDim S100000x1 ![0] bcast_S100000_S100000x1_0 (deg x2) : RArr F S100000x1) : RArr F S100000x256)

def rows128 (h : RArr F S100000x128) (x : IArr F S600000) : RArr F S600000x128 :=
  Host.gather gather_S100000x128_S600000x1_S600000x128_1_0_n_n_0_1_1128 h (wrapIdx x)

def biasRow256 (b : RArr F S256) : RArr F S1x256 := fun i => shapeCast S1x256 b shapeCasts_S256_S1x256 i
def biasRow128 (b : RArr F S128) : RArr F S1x128 := fun i => shapeCast S1x128 b shapeCasts_S128_S1x128 i
def biasRow1 (b : RArr F S1) : RArr F S1x1 := fun i => shapeCast S1x1 b shapeCasts_S1_S1x1 i

def wTop (w : RArr F S256x1) : RArr F S128x1 := extractStridedSlice S128x1 ![0, 0] w slices_S256x1_S128x1_0_0
def wBot (w : RArr F S256x1) : RArr F S128x1 := extractStridedSlice S128x1 ![128, 0] w slices_S256x1_S128x1_128_0

end Cert.KernelIdeal.HostFn

end
-- ==== Proof.Total.lean ====
/-
  The whole network as one function of the eleven argument arrays, on the extended reals: layer one of the node features
  and their neighbourhood means; layer two of that hidden array and ITS neighbourhood means; then, per edge, the score of
  the source node's and the destination node's rows of the second hidden array.
-/
import proofs.«153595_j31662498906598_1_alg».proof.Proof.Spec
import proofs.«153595_j31662498906598_1_alg».proof.Proof.HostFn

noncomputable section

namespace Cert.Sage

open Cert.KernelIdeal Cert.KernelIdeal.HostFn Idealize.ShloMosaic

/-- The hidden array after layer one. -/
def hidden1 (x0 : RArr Ideal S100000x128) (x1 x2 : IArr Ideal S600000) (x3 x4 : RArr Ideal S128x256) (x5 : RArr Ideal S256) :
    RArr Ideal S100000x256 :=
  G0 x0 (agg128 x0 x1 x2) x3 x4 (biasRow256 x5)

/-- The hidden array after layer two. -/
def hidden2 (x0 : RArr Ideal S100000x128) (x1 x2 : IArr Ideal S600000) (x3 x4 : RArr Ideal S128x256) (x5 : RArr Ideal S256)
    (x6 x7 : RArr Ideal S256x128) (x8 : RArr Ideal S128) : RArr Ideal S100000x128 :=
  G1 (hidden1 x0 x1 x2 x3 x4 x5) (agg256 (hidden1 x0 x1 x2 x3 x4 x5) x1 x2) x6 x7 (biasRow128 x8)

/-- The edge scores. -/
def score (x0 : RArr Ideal S100000x128) (x1 x2 : IArr Ideal S600000) (x3 x4 : RArr Ideal S128x256) (x5 : RArr Ideal S256)
    (x6 x7 : RArr Ideal S256x128) (x8 : RArr Ideal S128) (x9 : RArr Ideal S256x1) (x10 : RArr Ideal S1) : RArr Ideal S600000x1 :=
  G2 (rows128 (hidden2 x0 x1 x2 x3 x4 x5 x6 x7 x8) x1) (rows128 (hidden2 x0 x1 x2 x3 x4 x5 x6 x7 x8) x2)
    (wTop x9) (wBot x9) (biasRow1 x10)

end Cert.Sage

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.Region0.lean ====
import proofs.«153595_j31662498906598_1_alg».proof.Proof.Gen.KernelIdeal.Frame
import proofs.«153595_j31662498906598_1_alg».proof.Proof.Spec
import proofs.«153595_j31662498906598_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

/-
  Region 0 (layer one) read as a value: 20 grid points, point t holding rows 5000·t … 5000·t + 4999.
-/

namespace Cert.KernelIdeal.Val0

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl

/-- A row vector broadcast down the rows, read at an index: the row's entry at the index's column. -/
theorem bcast_row (v : S1x256.Idx → EReal) (j : S5000x256.Idx) :
    broadcastTo S5000x256 v broadcasts_S1x256_S5000x256 j = v (ix2 (0 : Fin 1) (j 1)) := by
  refine broadcastTo_apply v broadcasts_S1x256_S5000x256 j (ix2 (0 : Fin 1) (j 1)) fun a => ?_
  match a with
  | ⟨0, _⟩ => rfl
  | ⟨1, _⟩ => rfl

/-- The stored value at an index: the two row-by-column sums added, plus the bias row's entry at the column, then the
    maximum with zero. The narrowing to bf16 and the same-shape casts are identities on the extended reals. -/
theorem pay_apply (x0 x1 : Vec Ideal S5000x128 .f32) (x2 x3 : Vec Ideal S128x256 .f32) (x4 : Vec Ideal S1x256 .f32)
    (j : S5000x256.Idx) :
    k0_pay1 (F := Ideal) x0 x1 x2 x3 x4 j
      = max (((∑ k : Fin 128, x0 (ix2 (j 0) k) * x2 (ix2 k (j 1))) + (∑ k : Fin 128, x1 (ix2 (j 0) k) * x3 (ix2 k (j 1))))
          + x4 (ix2 (0 : Fin 1) (j 1))) (Ideal.ofBits .f32 0x00000000#32) := by
  unfold k0_pay1
  show max ((matmul _ none _ _ _ j + matmul _ none _ _ _ j) + broadcastTo S5000x256 _ broadcasts_S1x256_S5000x256 j) (Ideal.ofBits .f32 0x00000000#32) = _
  rw [bcast_row, shapeCast_self, shapeCast_self]
  have e1 : matmul dot_S5000x128_S128x256_S5000x256_1_0_0_1_n_n none (truncf FTy.bf16 x0 bitsLt_bf16_f32)
      (truncf FTy.bf16 x2 bitsLt_bf16_f32) (constant (F := Ideal) S5000x256 FTy.f32 0#32) j
        = ∑ k : Fin 128, x0 (ix2 (j 0) k) * x2 (ix2 k (j 1)) :=
    PlainDot.matmul_zero_apply 5000 128 256 none (truncf FTy.bf16 x0 bitsLt_bf16_f32) (truncf FTy.bf16 x2 bitsLt_bf16_f32) j
  have e2 : matmul dot_S5000x128_S128x256_S5000x256_1_0_0_1_n_n none (truncf FTy.bf16 x1 bitsLt_bf16_f32)
      (truncf FTy.bf16 x3 bitsLt_bf16_f32) (constant (F := Ideal) S5000x256 FTy.f32 0#32) j
        = ∑ k : Fin 128, x1 (ix2 (j 0) k) * x3 (ix2 k (j 1)) :=
    PlainDot.matmul_zero_apply 5000 128 256 none (truncf FTy.bf16 x1 bitsLt_bf16_f32) (truncf FTy.bf16 x3 bitsLt_bf16_f32) j
  rw [e1, e2]

/-- The block indices over the grid: the row-blocked arrays' first block index is the point, every other is zero. -/
theorem idx_facts : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The first row operand's block at point `t` is rows `5000 t … 5000 t + 4999` of its array. -/
theorem blk0_apply (c : Dev nD) (t : Fin cfg0.N) (y : S5000x128.Idx) (k : S100000x128.Idx)
    (hk0 : (k 0).val = 5000 * t.val + (y 0).val) (hk1 : (k 1).val = (y 1).val) :
    (iblk0 V c 0 t : Vec Ideal S5000x128 .f32) y = (V c main_arg0 : S100000x128.Idx → Elt Ideal .f32) k := by
  obtain ⟨-, -, e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * (y 0).val = (k 0).val; rw [e0, hk0]; omega
  | ⟨1, _⟩ => show win0_0.index t (1 : Fin 2) * 128 + 1 * (y 1).val = (k 1).val; rw [e1, hk1]; omega

/-- The second row operand's block at point `t` is rows `5000 t … 5000 t + 4999` of its array. -/
theorem blk1_apply (c : Dev nD) (t : Fin cfg0.N) (y : S5000x128.Idx) (k : S100000x128.Idx)
    (hk0 : (k 0).val = 5000 * t.val + (y 0).val) (hk1 : (k 1).val = (y 1).val) :
    (iblk0 V c 1 t : Vec Ideal S5000x128 .f32) y = (V c main_v18 : S100000x128.Idx → Elt Ideal .f32) k := by
  obtain ⟨-, -, -, -, e0, e1, -⟩ := idx_facts t
  unfold iblk0
  rw [View.read_apply]
  show V c main_v18 _ = V c main_v18 _
  congr 1
  funext a
  apply Fin.ext
  match a with
  | ⟨0, _⟩ => show win0_1.index t (0 : Fin 2) * 5000 + 1 * (y 0).val = (k 0).val; rw [e0, hk0]; omega
  | ⟨1, _⟩ => show win0_1.index t (1 : Fin 2) * 128 + 1 * (y 1).val = (k 1).val; rw [e1, hk1]; omega

/-- The first weight matrix's block at every point is the whole matrix. -/
theorem blk2_apply (c : Dev nD) (t : Fin cfg0.N) (y k : S128x256.Idx)
    (hk0 : (k 0).val = (y 0).val) (hk1 : (k 1).val = (y 1).val) :
    (iblk0 V c 2 t : Vec Ideal S128x256 .f32) y = (V c main_arg3 : S128x256.Idx → Elt Ideal .f32) k := by
  obtain ⟨-, -, -, -, -, -, e0, e1, -⟩ := idx_facts t
  unfold iblk0
  rw [View.read_apply]
  show V c main_arg3 _ = V c main_arg3 _
  congr 1
  funext a
  apply Fin.ext
  match a with
  | ⟨0, _⟩ => show win0_2.index t (0 : Fin 2) * 128 + 1 * (y 0).val = (k 0).val; rw [e0, hk0]; omega
  | ⟨1, _⟩ => show win0_2.index t (1 : Fin 2) * 256 + 1 * (y 1).val = (k 1).val; rw [e1, hk1]; omega

/-- The second weight matrix's block at every point is the whole matrix. -/
theorem blk3_apply (c : Dev nD) (t : Fin cfg0.N) (y k : S128x256.Idx)
    (hk0 : (k 0).val = (y 0).val) (hk1 : (k 1).val = (y 1).val) :
    (iblk0 V c 3 t : Vec Ideal S128x256 .f32) y = (V c main_arg4 : S128x256.Idx → Elt Ideal .f32) k := by
  obtain ⟨-, -, -, -, -, -, -, -, e0, e1, -⟩ := idx_facts t
  unfold iblk0
  rw [View.read_apply]
  show V c main_arg4 _ = V c main_arg4 _
  congr 1
  funext a
  apply Fin.ext
  match a with
  | ⟨0, _⟩ => show win0_3.index t (0 : Fin 2) * 128 + 1 * (y 0).val = (k 0).val; rw [e0, hk0]; omega
  | ⟨1, _⟩ => show win0_3.index t (1 : Fin 2) * 256 + 1 * (y 1).val = (k 1).val; rw [e1, hk1]; omega

/-- The bias row's block at every point is the whole row. -/
theorem blk4_apply (c : Dev nD) (t : Fin cfg0.N) (y k : S1x256.Idx)
    (hk0 : (k 0).val = (y 0).val) (hk1 : (k 1).val = (y 1).val) :
    (iblk0 V c 4 t : Vec Ideal S1x256 .f32) y = (V c main_v19 : S1x256.Idx → Elt Ideal .f32) k := by
  obtain ⟨-, -, -, -, -, -, -, -, -, -, e0, e1⟩ := idx_facts t
  unfold iblk0
  rw [View.read_apply]
  show V c main_v19 _ = V c main_v19 _
  congr 1
  funext a
  apply Fin.ext
  match a with
  | ⟨0, _⟩ => show win0_4.index t (0 : Fin 2) * 1 + 1 * (y 0).val = (k 0).val; rw [e0, hk0]; omega
  | ⟨1, _⟩ => show win0_4.index t (1 : Fin 2) * 256 + 1 * (y 1).val = (k 1).val; rw [e1, hk1]; omega

/-- The stored value at `j` is layer one of any arrays that agree with the operands along row `j₀` and column `j₁`. -/
theorem pay_eq_G0 (x0 x1 : Vec Ideal S5000x128 .f32) (x2 x3 : Vec Ideal S128x256 .f32) (x4 : Vec Ideal S1x256 .f32)
    (a0 a1 : Vec Ideal S100000x128 .f32) (w0 w1 : Vec Ideal S128x256 .f32) (b : Vec Ideal S1x256 .f32)
    (j : S5000x256.Idx) (i : S100000x256.Idx)
    (h0 : ∀ k : Fin 128, x0 (ix2 (j 0) k) = a0 (ix2 (i 0) k))
    (h1 : ∀ k : Fin 128, x1 (ix2 (j 0) k) = a1 (ix2 (i 0) k))
    (h2 : ∀ k : Fin 128, x2 (ix2 k (j 1)) = w0 (ix2 k (i 1)))
    (h3 : ∀ k : Fin 128, x3 (ix2 k (j 1)) = w1 (ix2 k (i 1)))
    (h4 : x4 (ix2 (0 : Fin 1) (j 1)) = b (ix2 (0 : Fin 1) (i 1))) :
    k0_pay1 (F := Ideal) x0 x1 x2 x3 x4 j = Cert.Sage.G0 a0 a1 w0 w1 b i := by
  rw [pay_apply]
  simp only [h0, h1, h2, h3, h4]
  rfl

/-- What point `t` stores at `j` of its block is layer one of the arrays at row `5000 t + j₀`, column `j₁`. -/
theorem point_eq (c : Dev nD) (t : Fin cfg0.N) (j : S5000x256.Idx) (i : S100000x256.Idx)
    (hi0 : (i 0).val = 5000 * t.val + (j 0).val) (hi1 : (i 1).val = (j 1).val) :
    k0_pay1 (F := Ideal) (iblk0 V c 0 t) (iblk0 V c 1 t) (iblk0 V c 2 t) (iblk0 V c 3 t) (iblk0 V c 4 t) j
      = Cert.Sage.G0 (V c main_arg0) (V c main_v18) (V c main_arg3) (V c main_arg4) (V c main_v19) i :=
  pay_eq_G0 (iblk0 V c 0 t) (iblk0 V c 1 t) (iblk0 V c 2 t) (iblk0 V c 3 t) (iblk0 V c 4 t)
    (V c main_arg0) (V c main_v18) (V c main_arg3) (V c main_arg4) (V c main_v19) j i
    (fun k => blk0_apply V c t (ix2 (j 0) k) (ix2 (i 0) k) hi0 rfl)
    (fun k => blk1_apply V c t (ix2 (j 0) k) (ix2 (i 0) k) hi0 rfl)
    (fun k => blk2_apply V c t (ix2 k (j 1)) (ix2 k (i 1)) rfl hi1)
    (fun k => blk3_apply V c t (ix2 k (j 1)) (ix2 k (i 1)) rfl hi1)
    (blk4_apply V c t (ix2 (0 : Fin 1) (j 1)) (ix2 (0 : Fin 1) (i 1)) rfl hi1)

/-- What point `t` writes back is its block of layer one of the arrays the region finds. -/
theorem flushed_eq (c : Dev nD) (t : Fin cfg0.N) :
    (dat0 (F := Ideal) V c).flushed 5 t = ((cfg0.win 5).blk t).view.read (Elt Ideal)
      (Cert.Sage.G0 (V c main_arg0) (V c main_v18) (V c main_arg3) (V c main_arg4) (V c main_v19)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x256) hz, View.ld_unit_zero (S := S1x256) hz]
  obtain ⟨e0, e1, -⟩ := idx_facts t
  funext j
  refine point_eq V c t j _ ?_ ?_
  · show win0_5.index t (0 : Fin 2) * 5000 + 1 * (j 0).val = _
    rw [e0]; omega
  · show win0_5.index t (1 : Fin 2) * 256 + 1 * (j 1).val = _
    rw [e1]; omega

/-- An index of the array is in point `t`'s block iff each coordinate is in the block's range on its axis. -/
theorem mem_blk (t : Fin cfg0.N) (i : S100000x256.Idx) :
    i ∈ ((cfg0.win 5).blk t).view.set ↔ ∀ a : Fin 2, win0_5.index t a * S5000x256.size a ≤ (i a).val
      ∧ (i a).val < win0_5.index t a * S5000x256.size a + S5000x256.size a := by
  show i ∈ ((View.whole main_v20).slice (win0_5.rect t)).set ↔ _
  rw [View.set_slice_whole, Rect.mem_set_unit]
  exact Iff.rfl

/-- Every index of the array is in the block of the point its row names: row `r` is in block `r / 5000`. -/
theorem cover (i : S100000x256.Idx) :
    ∃ t : Fin cfg0.N, (cfg0.win 5).flush t = true ∧ i ∈ ((cfg0.win 5).blk t).view.set := by
  have hi0 : (i 0).val < 100000 := (i 0).isLt
  have hi1 : (i 1).val < 256 := (i 1).isLt
  have hN : cfg0.N = 20 := rfl
  have ht : (i 0).val / 5000 < cfg0.N := by rw [hN]; omega
  obtain ⟨e0, e1, -⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, ht⟩ (1 : Fin 2) * 256 ≤ (i 1).val
      ∧ (i 1).val < win0_5.index ⟨(i 0).val / 5000, ht⟩ (1 : Fin 2) * 256 + 256
    rw [e1]
    omega

/-- The array layer one's region leaves: `Sage.G0` of the arrays the region finds. -/
theorem final0 (c : Dev nD) :
    (dat0 (F := Ideal) V c).arrAt 5 cfg0.N
      = Cert.Sage.G0 (V c main_arg0) (V c main_v18) (V c main_arg3) (V c main_arg4) (V c main_v19) :=
  (dat0 (F := Ideal) V c).arrAt_eq_of_cover 5
    (Cert.Sage.G0 (V c main_arg0) (V c main_v18) (V c main_arg3) (V c main_arg4) (V c main_v19))
    (fun t _ => flushed_eq V c t) cover

end Cert.KernelIdeal.Val0

end
-- ==== Proof.Region1.lean ====
import proofs.«153595_j31662498906598_1_alg».proof.Proof.Gen.KernelIdeal.Frame
import proofs.«153595_j31662498906598_1_alg».proof.Proof.Spec
import proofs.«153595_j31662498906598_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

/-
  Region 1 (layer two) read as a value: 20 grid points, point t holding rows 5000·t … 5000·t + 4999.
-/

namespace Cert.KernelIdeal.Val1

open Cert.KernelIdeal Cert.KernelIdeal.Gen Idealize.ShloMosaic Idealize.ShloMosaic.TcCoe Idealize.ShloMosaic.ValueIdx
open Idealize.SL.Sem Idealize.ShloMosaic.Pipeline

theorem hz : (![0, 0] : Fin 2 → Nat) = fun _ => 0 := funext fun a => by fin_cases a <;> rfl

/-- The bias row spread over the block's rows, read at an index: the row's entry at the index's column. -/
theorem bias_apply (x : Vec Ideal S1x128 .f32) (j : S5000x128.Idx) :
    broadcastTo S5000x128 x broadcasts_S1x128_S5000x128 j = x (ix2 (0 : Fin 1) (j 1)) := by
  refine broadcastTo_apply x broadcasts_S1x128_S5000x128 j (ix2 (0 : Fin 1) (j 1)) fun a => ?_
  match a with
  | ⟨0, _⟩ => rfl
  | ⟨1, _⟩ => rfl

/-- The body's payload at an index of the block: the two row-by-column sums and the bias entry. -/
theorem pay_apply (x0 x1 : Vec Ideal S5000x256 .f32) (x2 x3 : Vec Ideal S256x128 .f32) (x4 : Vec Ideal S1x128 .f32)
    (j : S5000x128.Idx) :
    k1_pay1 (F := Ideal) x0 x1 x2 x3 x4 j
      = ((∑ k : Fin 256, x0 (ix2 (j 0) k) * x2 (ix2 k (j 1))) + (∑ k : Fin 256, x1 (ix2 (j 0) k) * x3 (ix2 k (j 1))))
        + x4 (ix2 (0 : Fin 1) (j 1)) := by
  unfold k1_pay1
  simp only [shapeCast_self]
  rw [addf_apply, addf_apply, bias_apply]
  refine congrArg₂ (· + ·) (congrArg₂ (· + ·) ?_ ?_) rfl
  · exact PlainDot.matmul_zero_apply 5000 256 128 none (truncf .bf16 x0 bitsLt_bf16_f32) (truncf .bf16 x2 bitsLt_bf16_f32) j
  · exact PlainDot.matmul_zero_apply 5000 256 128 none (truncf .bf16 x1 bitsLt_bf16_f32) (truncf .bf16 x3 bitsLt_bf16_f32) j

/-- The printed index maps, decided over the grid: the two row operands' windows and the output window sit at
    block (t, 0); the weight and bias windows at block (0, 0). -/
theorem idx_facts : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

variable (V : (c : Dev nD) → (b : Ref sig .tc) → Buf (Elt Ideal) ((c : Thread nD τ).loc b))

/-- Block t of the hidden features is rows 5000·t … of the array. -/
theorem read0 (c : Dev nD) (t : Fin cfg1.N) (y : S5000x256.Idx) (i : S100000x256.Idx)
    (h0 : (i 0).val = 5000 * t.val + (y 0).val) (h1 : (i 1).val = (y 1).val) :
    iblk1 V c 0 t y = V c main_v20 i := by
  obtain ⟨-, -, e0, e1, -⟩ := idx_facts t
  show V c main_v20 (((cfg1.win 0).blk t).view.emb y) = V c main_v20 i
  refine congrArg _ (funext fun a => Fin.ext ?_)
  match a with
  | ⟨0, _⟩ => show win1_0.index t (0 : Fin 2) * 5000 + 1 * (y 0).val = (i 0).val; omega
  | ⟨1, _⟩ => show win1_0.index t (1 : Fin 2) * 256 + 1 * (y 1).val = (i 1).val; omega

/-- Block t of the neighbourhood means is rows 5000·t … of the array. -/
theorem read1 (c : Dev nD) (t : Fin cfg1.N) (y : S5000x256.Idx) (i : S100000x256.Idx)
    (h0 : (i 0).val = 5000 * t.val + (y 0).val) (h1 : (i 1).val = (y 1).val) :
    iblk1 V c 1 t y = V c main_v39 i := by
  obtain ⟨-, -, -, -, e0, e1, -⟩ := idx_facts t
  show V c main_v39 (((cfg1.win 1).blk t).view.emb y) = V c main_v39 i
  refine congrArg _ (funext fun a => Fin.ext ?_)
  match a with
  | ⟨0, _⟩ => show win1_1.index t (0 : Fin 2) * 5000 + 1 * (y 0).val = (i 0).val; omega
  | ⟨1, _⟩ => show win1_1.index t (1 : Fin 2) * 256 + 1 * (y 1).val = (i 1).val; omega

/-- The first weight matrix's block is the whole matrix, at every point. -/
theorem read2 (c : Dev nD) (t : Fin cfg1.N) (y i : S256x128.Idx)
    (h0 : (i 0).val = (y 0).val) (h1 : (i 1).val = (y 1).val) :
    iblk1 V c 2 t y = V c main_arg6 i := by
  obtain ⟨-, -, -, -, -, -, e0, e1, -⟩ := idx_facts t
  show V c main_arg6 (((cfg1.win 2).blk t).view.emb y) = V c main_arg6 i
  refine congrArg _ (funext fun a => Fin.ext ?_)
  match a with
  | ⟨0, _⟩ => show win1_2.index t (0 : Fin 2) * 256 + 1 * (y 0).val = (i 0).val; omega
  | ⟨1, _⟩ => show win1_2.index t (1 : Fin 2) * 128 + 1 * (y 1).val = (i 1).val; omega

/-- The second weight matrix's block is the whole matrix, at every point. -/
theorem read3 (c : Dev nD) (t : Fin cfg1.N) (y i : S256x128.Idx)
    (h0 : (i 0).val = (y 0).val) (h1 : (i 1).val = (y 1).val) :
    iblk1 V c 3 t y = V c main_arg7 i := by
  obtain ⟨-, -, -, -, -, -, -, -, e0, e1, -⟩ := idx_facts t
  show V c main_arg7 (((cfg1.win 3).blk t).view.emb y) = V c main_arg7 i
  refine congrArg _ (funext fun a => Fin.ext ?_)
  match a with
  | ⟨0, _⟩ => show win1_3.index t (0 : Fin 2) * 256 + 1 * (y 0).val = (i 0).val; omega
  | ⟨1, _⟩ => show win1_3.index t (1 : Fin 2) * 128 + 1 * (y 1).val = (i 1).val; omega

/-- The bias row's block is the whole row, at every point. -/
theorem read4 (c : Dev nD) (t : Fin cfg1.N) (y i : S1x128.Idx)
    (h0 : (i 0).val = (y 0).val) (h1 : (i 1).val = (y 1).val) :
    iblk1 V c 4 t y = V c main_v40 i := by
  obtain ⟨-, -, -, -, -, -, -, -, -, -, e0, e1⟩ := idx_facts t
  show V c main_v40 (((cfg1.win 4).blk t).view.emb y) = V c main_v40 i
  refine congrArg _ (funext fun a => Fin.ext ?_)
  match a with
  | ⟨0, _⟩ => show win1_4.index t (0 : Fin 2) * 1 + 1 * (y 0).val = (i 0).val; omega
  | ⟨1, _⟩ => show win1_4.index t (1 : Fin 2) * 128 + 1 * (y 1).val = (i 1).val; omega

/-- What point t writes back is block t of the affine map of the arrays the region finds. -/
theorem flushed_eq (c : Dev nD) (t : Fin cfg1.N) :
    (dat1 (F := Ideal) V c).flushed 5 t = ((cfg1.win 5).blk t).view.read (Elt Ideal)
      (Cert.Sage.G1 (V c main_v20) (V c main_v39) (V c main_arg6) (V c main_arg7) (V c main_v40)) := by
  show (cfg1.win 5).cut (grid1.coords t) ((dat1 (F := Ideal) V c).after 5 t) = _
  rw [after1_5]
  unfold out1_5
  rw [View.canon_unit_zero hz]
  simp only [View.ld_unit_zero (S := S5000x256) hz, View.ld_unit_zero (S := S256x128) hz, View.ld_unit_zero (S := S1x128) hz]
  obtain ⟨e0, e1, -⟩ := idx_facts t
  funext j
  refine (pay_apply (iblk1 V c 0 t) (iblk1 V c 1 t) (iblk1 V c 2 t) (iblk1 V c 3 t) (iblk1 V c 4 t) j).trans ?_
  have hr : ((((cfg1.win 5).blk t).view.emb j) 0).val = 5000 * t.val + (j 0).val := by
    show win1_5.index t (0 : Fin 2) * 5000 + 1 * (j 0).val = _; omega
  have hc : ((((cfg1.win 5).blk t).view.emb j) 1).val = (j 1).val := by
    show win1_5.index t (1 : Fin 2) * 128 + 1 * (j 1).val = _; omega
  show _ = Cert.Sage.affine 100000 256 128 (V c main_v20) (V c main_v39) (V c main_arg6) (V c main_arg7) (V c main_v40)
    (((cfg1.win 5).blk t).view.emb j)
  unfold Cert.Sage.affine
  refine congrArg₂ (· + ·) (congrArg₂ (· + ·) (Finset.sum_congr rfl fun k _ => congrArg₂ (· * ·) ?_ ?_)
    (Finset.sum_congr rfl fun k _ => congrArg₂ (· * ·) ?_ ?_)) ?_
  · exact read0 V c t _ _ hr rfl
  · exact read2 V c t _ _ rfl hc
  · exact read1 V c t _ _ hr rfl
  · exact read3 V c t _ _ rfl hc
  · exact read4 V c t _ _ rfl hc

/-- An index of the array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v41).slice (win1_5.rect t)).set ↔ _
  rw [View.set_slice_whole, Rect.mem_set_unit]
  exact Iff.rfl

/-- Every row of the array is in the block of the point its row number divided by 5000 names. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := rfl
  refine ⟨⟨(i 0).val / 5000, by rw [hN]; omega⟩, flush1_5 _, ?_⟩
  obtain ⟨e0, e1, -⟩ := idx_facts ⟨(i 0).val / 5000, by rw [hN]; omega⟩
  rw [mem_blk]
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e1]; omega

/-- The array layer two's region leaves: `Sage.G1` of the arrays the region finds. -/
theorem final1 (c : Dev nD) :
    (dat1 (F := Ideal) V c).arrAt 5 cfg1.N
      = Cert.Sage.G1 (V c main_v20) (V c main_v39) (V c main_arg6) (V c main_arg7) (V c main_v40) :=
  (dat1 (F := Ideal) V c).arrAt_eq_of_cover 5
    (Cert.Sage.G1 (V c main_v20) (V c main_v39) (V c main_arg6) (V c main_arg7) (V c main_v40))
    (fun t _ => flushed_eq V c t) cover

end Cert.KernelIdeal.Val1

end
-- ==== Proof.Region2.lean ====
import proofs.«153595_j31662498906598_1_alg».proof.Proof.Gen.KernelIdeal.Frame
import proofs.«153595_j31662498906598_1_alg».proof.Proof.Spec
import proofs.«153595_j31662498906598_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

/-
  Region 2 (the edge scorer) read as a value: 60 grid points, point t holding edges 10000·t … 10000·t + 9999.
-/

namespace Cert.KernelIdeal.Val2

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

/-- The zero offsets of a whole-buffer access. -/
theorem hz : (![0, 0] : Fin 2 → Nat) = fun _ => 0 := funext fun a => by fin_cases a <;> rfl

/-- The bias row spread over the block's rows, read at an index: the row's one entry. -/
theorem bias_apply (x4 : Vec Ideal S1x1 .f32) (j : S10000x1.Idx) :
    broadcastTo S10000x1 x4 broadcasts_S1x1_S10000x1 j = x4 (ix2 (0 : Fin 1) (j 1)) := by
  refine broadcastTo_apply x4 _ j _ fun a => ?_
  have h1 : (j 1).val < 1 := (j 1).isLt
  match a with
  | ⟨0, _⟩ => rfl
  | ⟨1, _⟩ => exact (show (j 1).val = 0 by omega).trans (if_pos rfl).symm

/-- The body's payload at an index: the two rows contracted with their weight columns, plus the bias. -/
theorem pay_apply (x0 x1 : Vec Ideal S10000x128 .f32) (x2 x3 : Vec Ideal S128x1 .f32) (x4 : Vec Ideal S1x1 .f32)
    (j : S10000x1.Idx) :
    k2_pay1 (F := Ideal) x0 x1 x2 x3 x4 j
      = ((∑ k : Fin 128, x0 (ix2 (j 0) k) * x2 (ix2 k (j 1))) + (∑ k : Fin 128, x1 (ix2 (j 0) k) * x3 (ix2 k (j 1))))
        + x4 (ix2 (0 : Fin 1) (j 1)) := by
  unfold k2_pay1
  simp only [shapeCast_self]
  rw [addf_apply, addf_apply]
  refine congrArg₂ (· + ·) (congrArg₂ (· + ·) ?_ ?_) (bias_apply x4 j)
  · exact PlainDot.matmul_zero_apply 10000 128 1 none (truncf .bf16 x0 bitsLt_bf16_f32) (truncf .bf16 x2 bitsLt_bf16_f32) j
  · exact PlainDot.matmul_zero_apply 10000 128 1 none (truncf .bf16 x1 bitsLt_bf16_f32) (truncf .bf16 x3 bitsLt_bf16_f32) j

/-- The windows' index maps, decided over the grid: the two row operands and the output move with the point, the weight
    columns and the bias stay at block zero. -/
theorem idx_facts : ∀ t : Fin cfg2.N, win2_5.index t (0 : Fin 2) = t.val ∧ win2_5.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- The first row operand's block at point `t` is rows `10000 t … 10000 t + 9999` of its array. -/
theorem blk0_apply (c : Dev nD) (t : Fin cfg2.N) (y : S10000x128.Idx) (k : S600000x128.Idx)
    (hk0 : (k 0).val = 10000 * t.val + (y 0).val) (hk1 : (k 1).val = (y 1).val) :
    (iblk2 V c 0 t : Vec Ideal S10000x128 .f32) y = V c main_v48 k := by
  obtain ⟨-, -, e0, e1, -⟩ := idx_facts t
  unfold iblk2
  rw [View.read_apply]
  show V c main_v48 _ = V c main_v48 _
  congr 1
  funext a
  apply Fin.ext
  have h0 : (y 0).val < 10000 := (y 0).isLt
  have h1 : (y 1).val < 128 := (y 1).isLt
  match a with
  | ⟨0, _⟩ => show win2_0.index t (0 : Fin 2) * 10000 + 1 * (y 0).val = (k 0).val; rw [e0, hk0]; omega
  | ⟨1, _⟩ => show win2_0.index t (1 : Fin 2) * 128 + 1 * (y 1).val = (k 1).val; rw [e1, hk1]; omega

/-- The second row operand's block at point `t` is rows `10000 t … 10000 t + 9999` of its array. -/
theorem blk1_apply (c : Dev nD) (t : Fin cfg2.N) (y : S10000x128.Idx) (k : S600000x128.Idx)
    (hk0 : (k 0).val = 10000 * t.val + (y 0).val) (hk1 : (k 1).val = (y 1).val) :
    (iblk2 V c 1 t : Vec Ideal S10000x128 .f32) y = V c main_v55 k := by
  obtain ⟨-, -, -, -, e0, e1, -⟩ := idx_facts t
  unfold iblk2
  rw [View.read_apply]
  show V c main_v55 _ = V c main_v55 _
  congr 1
  funext a
  apply Fin.ext
  have h0 : (y 0).val < 10000 := (y 0).isLt
  have h1 : (y 1).val < 128 := (y 1).isLt
  match a with
  | ⟨0, _⟩ => show win2_1.index t (0 : Fin 2) * 10000 + 1 * (y 0).val = (k 0).val; rw [e0, hk0]; omega
  | ⟨1, _⟩ => show win2_1.index t (1 : Fin 2) * 128 + 1 * (y 1).val = (k 1).val; rw [e1, hk1]; omega

/-- The first weight column's block at every point is the whole column. -/
theorem blk2_apply (c : Dev nD) (t : Fin cfg2.N) (y k : S128x1.Idx)
    (hk0 : (k 0).val = (y 0).val) (hk1 : (k 1).val = (y 1).val) :
    (iblk2 V c 2 t : Vec Ideal S128x1 .f32) y = V c main_v56 k := by
  obtain ⟨-, -, -, -, -, -, e0, e1, -⟩ := idx_facts t
  unfold iblk2
  rw [View.read_apply]
  show V c main_v56 _ = V c main_v56 _
  congr 1
  funext a
  apply Fin.ext
  match a with
  | ⟨0, _⟩ => show win2_2.index t (0 : Fin 2) * 128 + 1 * (y 0).val = (k 0).val; rw [e0, hk0]; omega
  | ⟨1, _⟩ => show win2_2.index t (1 : Fin 2) * 1 + 1 * (y 1).val = (k 1).val; rw [e1, hk1]; omega

/-- The second weight column's block at every point is the whole column. -/
theorem blk3_apply (c : Dev nD) (t : Fin cfg2.N) (y k : S128x1.Idx)
    (hk0 : (k 0).val = (y 0).val) (hk1 : (k 1).val = (y 1).val) :
    (iblk2 V c 3 t : Vec Ideal S128x1 .f32) y = V c main_v57 k := by
  obtain ⟨-, -, -, -, -, -, -, -, e0, e1, -⟩ := idx_facts t
  unfold iblk2
  rw [View.read_apply]
  show V c main_v57 _ = V c main_v57 _
  congr 1
  funext a
  apply Fin.ext
  match a with
  | ⟨0, _⟩ => show win2_3.index t (0 : Fin 2) * 128 + 1 * (y 0).val = (k 0).val; rw [e0, hk0]; omega
  | ⟨1, _⟩ => show win2_3.index t (1 : Fin 2) * 1 + 1 * (y 1).val = (k 1).val; rw [e1, hk1]; omega

/-- The bias's block at every point is the whole one-entry array. -/
theorem blk4_apply (c : Dev nD) (t : Fin cfg2.N) (y k : S1x1.Idx)
    (hk0 : (k 0).val = (y 0).val) (hk1 : (k 1).val = (y 1).val) :
    (iblk2 V c 4 t : Vec Ideal S1x1 .f32) y = V c main_v58 k := by
  obtain ⟨-, -, -, -, -, -, -, -, -, -, e0, e1⟩ := idx_facts t
  unfold iblk2
  rw [View.read_apply]
  show V c main_v58 _ = V c main_v58 _
  congr 1
  funext a
  apply Fin.ext
  match a with
  | ⟨0, _⟩ => show win2_4.index t (0 : Fin 2) * 1 + 1 * (y 0).val = (k 0).val; rw [e0, hk0]; omega
  | ⟨1, _⟩ => show win2_4.index t (1 : Fin 2) * 1 + 1 * (y 1).val = (k 1).val; rw [e1, hk1]; omega

/-- What point `t` writes back is block `t` of `Sage.G2` of the arrays the region finds. -/
theorem flushed_eq (c : Dev nD) (t : Fin cfg2.N) :
    (dat2 (F := Ideal) V c).flushed 5 t = ((cfg2.win 5).blk t).view.read (Elt Ideal)
      (Cert.Sage.G2 (V c main_v48) (V c main_v55) (V c main_v56) (V c main_v57) (V c main_v58)) := by
  show (cfg2.win 5).cut (grid2.coords t) ((dat2 V c).after 5 t) = _
  rw [after2_5]
  unfold out2_5
  rw [View.canon_unit_zero hz]
  simp only [View.ld_unit_zero (S := S10000x128) hz, View.ld_unit_zero (S := S128x1) hz, View.ld_unit_zero (S := S1x1) hz]
  obtain ⟨o0, o1, -⟩ := idx_facts t
  funext j
  refine (pay_apply _ _ _ _ _ j).trans ?_
  have hj0 : (j 0).val < 10000 := (j 0).isLt
  have hj1 : (j 1).val < 1 := (j 1).isLt
  have hr : ((((cfg2.win 5).blk t).view.emb j) 0).val = 10000 * t.val + (j 0).val := by
    show win2_5.index t (0 : Fin 2) * 10000 + 1 * (j 0).val = _
    rw [o0]; omega
  have hc : ((((cfg2.win 5).blk t).view.emb j) 1).val = (j 1).val := by
    show win2_5.index t (1 : Fin 2) * 1 + 1 * (j 1).val = _
    rw [o1]; omega
  show _ = Cert.Sage.affine 600000 128 1 (V c main_v48) (V c main_v55) (V c main_v56) (V c main_v57) (V c main_v58)
    (((cfg2.win 5).blk t).view.emb j)
  unfold Cert.Sage.affine
  refine congrArg₂ (· + ·) (congrArg₂ (· + ·) (Finset.sum_congr rfl fun k _ => congrArg₂ (· * ·) ?_ ?_)
    (Finset.sum_congr rfl fun k _ => congrArg₂ (· * ·) ?_ ?_)) ?_
  · exact blk0_apply V c t _ _ hr rfl
  · exact blk2_apply V c t _ _ rfl hc
  · exact blk1_apply V c t _ _ hr rfl
  · exact blk3_apply V c t _ _ rfl hc
  · exact blk4_apply V c t _ _ rfl hc

/-- An index of the output array is in point `t`'s block iff each coordinate is in the block's range on its axis. -/
theorem mem_blk (t : Fin cfg2.N) (i : S600000x1.Idx) :
    i ∈ ((cfg2.win 5).blk t).view.set ↔ ∀ a : Fin 2, win2_5.index t a * S10000x1.size a ≤ (i a).val
      ∧ (i a).val < win2_5.index t a * S10000x1.size a + S10000x1.size a := by
  show i ∈ ((View.whole main_v59).slice (win2_5.rect t)).set ↔ _
  rw [View.set_slice_whole, Rect.mem_set_unit]
  exact Iff.rfl

/-- Every row of the output array is in the block of the point its ten-thousand names. -/
theorem cover (i : S600000x1.Idx) :
    ∃ t : Fin cfg2.N, (cfg2.win 5).flush t = true ∧ i ∈ ((cfg2.win 5).blk t).view.set := by
  have hi0 : (i 0).val < 600000 := (i 0).isLt
  have hi1 : (i 1).val < 1 := (i 1).isLt
  have hN : (i 0).val / 10000 < cfg2.N := by show (i 0).val / 10000 < 60; omega
  refine ⟨⟨(i 0).val / 10000, hN⟩, flush2_5 _, ?_⟩
  rw [mem_blk]
  obtain ⟨o0, o1, -⟩ := idx_facts ⟨(i 0).val / 10000, hN⟩
  intro a
  match a with
  | ⟨0, _⟩ =>
    show win2_5.index ⟨(i 0).val / 10000, hN⟩ (0 : Fin 2) * 10000 ≤ (i 0).val
      ∧ (i 0).val < win2_5.index ⟨(i 0).val / 10000, hN⟩ (0 : Fin 2) * 10000 + 10000
    rw [o0]; show (i 0).val / 10000 * 10000 ≤ (i 0).val ∧ (i 0).val < (i 0).val / 10000 * 10000 + 10000; omega
  | ⟨1, _⟩ =>
    show win2_5.index ⟨(i 0).val / 10000, hN⟩ (1 : Fin 2) * 1 ≤ (i 1).val
      ∧ (i 1).val < win2_5.index ⟨(i 0).val / 10000, hN⟩ (1 : Fin 2) * 1 + 1
    rw [o1]; omega

/-- The array the edge scorer's region leaves: `Sage.G2` of the arrays the region finds. -/
theorem final2 (c : Dev nD) :
    (dat2 (F := Ideal) V c).arrAt 5 cfg2.N
      = Cert.Sage.G2 (V c main_v48) (V c main_v55) (V c main_v56) (V c main_v57) (V c main_v58) :=
  (dat2 (F := Ideal) V c).arrAt_eq_of_cover 5
    (Cert.Sage.G2 (V c main_v48) (V c main_v55) (V c main_v56) (V c main_v57) (V c main_v58))
    (fun t _ => flushed_eq V c t) cover

end Cert.KernelIdeal.Val2

end
-- ==== Proof.HostK.lean ====
/-
  What each dense stage finds in the buffers it reads, traced back through the host arithmetic before it: the stretch of
  host operations before a region, applied to the buffers as the region before it left them (or, for the first stretch, as
  launched), gives each operand of the region as a function (`HostFn`) of arrays named one boundary earlier.
-/
import proofs.«153595_j31662498906598_1_alg».proof.Proof.Gen.KernelIdeal.Frame
import proofs.«153595_j31662498906598_1_alg».proof.Proof.HostFn
import Idealize.ShloMosaic.Lib.StableHlo.Run

set_option maxRecDepth 16384

noncomputable section

namespace Cert.KernelIdeal.HostK

open Cert.KernelIdeal Cert.KernelIdeal.Gen Cert.KernelIdeal.HostFn Idealize.ShloMosaic Idealize.ShloMosaic.TcCoe
open Idealize.SL.Sem Idealize.ShloMosaic.StableHlo

variable {F : FTy → Type} [FloatOps F]
variable (m : (ℓ : Loc nD τ sig) → Buf (Elt F) ℓ) (ρ : Dev nD → PrngReg) (c : Dev nD)

/-! ## A launch argument no host operation and no dense stage writes holds its launch contents at every boundary -/

theorem arg1_W1 : W1 m ρ c (Proc.devRef .tc main_arg1) = m ((c : Thread nD τ).loc main_arg1) := by
  show StableHlo.after hostOps0 (W0 m ρ c) (Proc.devRef .tc main_arg1) = _
  after_results_simp
theorem arg2_W1 : W1 m ρ c (Proc.devRef .tc main_arg2) = m ((c : Thread nD τ).loc main_arg2) := by
  show StableHlo.after hostOps0 (W0 m ρ c) (Proc.devRef .tc main_arg2) = _
  after_results_simp
theorem arg6_W1 : W1 m ρ c (Proc.devRef .tc main_arg6) = m ((c : Thread nD τ).loc main_arg6) := by
  show StableHlo.after hostOps0 (W0 m ρ c) (Proc.devRef .tc main_arg6) = _
  after_results_simp
theorem arg7_W1 : W1 m ρ c (Proc.devRef .tc main_arg7) = m ((c : Thread nD τ).loc main_arg7) := by
  show StableHlo.after hostOps0 (W0 m ρ c) (Proc.devRef .tc main_arg7) = _
  after_results_simp
theorem arg8_W1 : W1 m ρ c (Proc.devRef .tc main_arg8) = m ((c : Thread nD τ).loc main_arg8) := by
  show StableHlo.after hostOps0 (W0 m ρ c) (Proc.devRef .tc main_arg8) = _
  after_results_simp
theorem arg9_W1 : W1 m ρ c (Proc.devRef .tc main_arg9) = m ((c : Thread nD τ).loc main_arg9) := by
  show StableHlo.after hostOps0 (W0 m ρ c) (Proc.devRef .tc main_arg9) = _
  after_results_simp
theorem arg10_W1 : W1 m ρ c (Proc.devRef .tc main_arg10) = m ((c : Thread nD τ).loc main_arg10) := by
  show StableHlo.after hostOps0 (W0 m ρ c) (Proc.devRef .tc main_arg10) = _
  after_results_simp

theorem arg1_W2 : W2 m ρ c (Proc.devRef .tc main_arg1) = m ((c : Thread nD τ).loc main_arg1) :=
  (W2_of_ne m ρ c main_arg1 (by decide)).trans (arg1_W1 m ρ c)
theorem arg2_W2 : W2 m ρ c (Proc.devRef .tc main_arg2) = m ((c : Thread nD τ).loc main_arg2) :=
  (W2_of_ne m ρ c main_arg2 (by decide)).trans (arg2_W1 m ρ c)
theorem arg6_W2 : W2 m ρ c (Proc.devRef .tc main_arg6) = m ((c : Thread nD τ).loc main_arg6) :=
  (W2_of_ne m ρ c main_arg6 (by decide)).trans (arg6_W1 m ρ c)
theorem arg7_W2 : W2 m ρ c (Proc.devRef .tc main_arg7) = m ((c : Thread nD τ).loc main_arg7) :=
  (W2_of_ne m ρ c main_arg7 (by decide)).trans (arg7_W1 m ρ c)
theorem arg8_W2 : W2 m ρ c (Proc.devRef .tc main_arg8) = m ((c : Thread nD τ).loc main_arg8) :=
  (W2_of_ne m ρ c main_arg8 (by decide)).trans (arg8_W1 m ρ c)
theorem arg9_W2 : W2 m ρ c (Proc.devRef .tc main_arg9) = m ((c : Thread nD τ).loc main_arg9) :=
  (W2_of_ne m ρ c main_arg9 (by decide)).trans (arg9_W1 m ρ c)
theorem arg10_W2 : W2 m ρ c (Proc.devRef .tc main_arg10) = m ((c : Thread nD τ).loc main_arg10) :=
  (W2_of_ne m ρ c main_arg10 (by decide)).trans (arg10_W1 m ρ c)

theorem arg1_W3 : W3 m ρ c (Proc.devRef .tc main_arg1) = m ((c : Thread nD τ).loc main_arg1) := by
  show StableHlo.after hostOps1 (W2 m ρ c) (Proc.devRef .tc main_arg1) = _
  after_results_simp
  exact arg1_W2 m ρ c
theorem arg2_W3 : W3 m ρ c (Proc.devRef .tc main_arg2) = m ((c : Thread nD τ).loc main_arg2) := by
  show StableHlo.after hostOps1 (W2 m ρ c) (Proc.devRef .tc main_arg2) = _
  after_results_simp
  exact arg2_W2 m ρ c
theorem arg9_W3 : W3 m ρ c (Proc.devRef .tc main_arg9) = m ((c : Thread nD τ).loc main_arg9) := by
  show StableHlo.after hostOps1 (W2 m ρ c) (Proc.devRef .tc main_arg9) = _
  after_results_simp
  exact arg9_W2 m ρ c
theorem arg10_W3 : W3 m ρ c (Proc.devRef .tc main_arg10) = m ((c : Thread nD τ).loc main_arg10) := by
  show StableHlo.after hostOps1 (W2 m ρ c) (Proc.devRef .tc main_arg10) = _
  after_results_simp
  exact arg10_W2 m ρ c

theorem arg1_W4 : W4 m ρ c (Proc.devRef .tc main_arg1) = m ((c : Thread nD τ).loc main_arg1) :=
  (W4_of_ne m ρ c main_arg1 (by decide)).trans (arg1_W3 m ρ c)
theorem arg2_W4 : W4 m ρ c (Proc.devRef .tc main_arg2) = m ((c : Thread nD τ).loc main_arg2) :=
  (W4_of_ne m ρ c main_arg2 (by decide)).trans (arg2_W3 m ρ c)
theorem arg9_W4 : W4 m ρ c (Proc.devRef .tc main_arg9) = m ((c : Thread nD τ).loc main_arg9) :=
  (W4_of_ne m ρ c main_arg9 (by decide)).trans (arg9_W3 m ρ c)
theorem arg10_W4 : W4 m ρ c (Proc.devRef .tc main_arg10) = m ((c : Thread nD τ).loc main_arg10) :=
  (W4_of_ne m ρ c main_arg10 (by decide)).trans (arg10_W3 m ρ c)

/-! ## Region 0's operands, from the launch memory -/

theorem V1_arg0 : V1 m ρ c main_arg0 = m ((c : Thread nD τ).loc main_arg0) := by
  show StableHlo.after hostOps0 (W0 m ρ c) (Proc.devRef .tc main_arg0) = _
  after_results_simp
set_option maxHeartbeats 4000000 in
theorem V1_v18 : V1 m ρ c main_v18
    = agg128 (m ((c : Thread nD τ).loc main_arg0)) (m ((c : Thread nD τ).loc main_arg1)) (m ((c : Thread nD τ).loc main_arg2)) := by
  show StableHlo.after hostOps0 (W0 m ρ c) (Proc.devRef .tc main_v18) = _
  after_results_simp
  rfl
theorem V1_arg3 : V1 m ρ c main_arg3 = m ((c : Thread nD τ).loc main_arg3) := by
  show StableHlo.after hostOps0 (W0 m ρ c) (Proc.devRef .tc main_arg3) = _
  after_results_simp
theorem V1_arg4 : V1 m ρ c main_arg4 = m ((c : Thread nD τ).loc main_arg4) := by
  show StableHlo.after hostOps0 (W0 m ρ c) (Proc.devRef .tc main_arg4) = _
  after_results_simp
theorem V1_v19 : V1 m ρ c main_v19 = biasRow256 (m ((c : Thread nD τ).loc main_arg5)) := by
  show StableHlo.after hostOps0 (W0 m ρ c) (Proc.devRef .tc main_v19) = _
  after_results_simp
  rfl

/-! ## Region 1's operands, from region 0's exit -/

theorem V3_v20 : V3 m ρ c main_v20 = V2 m ρ c main_v20 := by
  show StableHlo.after hostOps1 (W2 m ρ c) (Proc.devRef .tc main_v20) = W2 m ρ c (Proc.devRef .tc main_v20)
  after_results_simp
set_option maxHeartbeats 4000000 in
theorem V3_v39 : V3 m ρ c main_v39
    = agg256 (V2 m ρ c main_v20) (m ((c : Thread nD τ).loc main_arg1)) (m ((c : Thread nD τ).loc main_arg2)) := by
  show StableHlo.after hostOps1 (W2 m ρ c) (Proc.devRef .tc main_v39) = _
  after_results_simp
  rw [arg1_W2 m ρ c, arg2_W2 m ρ c]
  rfl
theorem V3_arg6 : V3 m ρ c main_arg6 = m ((c : Thread nD τ).loc main_arg6) := by
  show StableHlo.after hostOps1 (W2 m ρ c) (Proc.devRef .tc main_arg6) = _
  after_results_simp
  exact arg6_W2 m ρ c
theorem V3_arg7 : V3 m ρ c main_arg7 = m ((c : Thread nD τ).loc main_arg7) := by
  show StableHlo.after hostOps1 (W2 m ρ c) (Proc.devRef .tc main_arg7) = _
  after_results_simp
  exact arg7_W2 m ρ c
theorem V3_v40 : V3 m ρ c main_v40 = biasRow128 (m ((c : Thread nD τ).loc main_arg8)) := by
  show StableHlo.after hostOps1 (W2 m ρ c) (Proc.devRef .tc main_v40) = _
  after_results_simp
  rw [arg8_W2 m ρ c]
  rfl

/-! ## Region 2's operands, from region 1's exit -/

set_option maxHeartbeats 4000000 in
theorem V5_v48 : V5 m ρ c main_v48 = rows128 (V4 m ρ c main_v41) (m ((c : Thread nD τ).loc main_arg1)) := by
  show StableHlo.after hostOps2 (W4 m ρ c) (Proc.devRef .tc main_v48) = _
  after_results_simp
  rw [arg1_W4 m ρ c]
  rfl
set_option maxHeartbeats 4000000 in
theorem V5_v55 : V5 m ρ c main_v55 = rows128 (V4 m ρ c main_v41) (m ((c : Thread nD τ).loc main_arg2)) := by
  show StableHlo.after hostOps2 (W4 m ρ c) (Proc.devRef .tc main_v55) = _
  after_results_simp
  rw [arg2_W4 m ρ c]
  rfl
theorem V5_v56 : V5 m ρ c main_v56 = wTop (m ((c : Thread nD τ).loc main_arg9)) := by
  show StableHlo.after hostOps2 (W4 m ρ c) (Proc.devRef .tc main_v56) = _
  after_results_simp
  rw [arg9_W4 m ρ c]
  rfl
theorem V5_v57 : V5 m ρ c main_v57 = wBot (m ((c : Thread nD τ).loc main_arg9)) := by
  show StableHlo.after hostOps2 (W4 m ρ c) (Proc.devRef .tc main_v57) = _
  after_results_simp
  rw [arg9_W4 m ρ c]
  rfl
theorem V5_v58 : V5 m ρ c main_v58 = biasRow1 (m ((c : Thread nD τ).loc main_arg10)) := by
  show StableHlo.after hostOps2 (W4 m ρ c) (Proc.devRef .tc main_v58) = _
  after_results_simp
  rw [arg10_W4 m ρ c]
  rfl

end Cert.KernelIdeal.HostK

end
-- ==== Proof.KernelValue.lean ====
/-
  The kernel program's result as a function of its arguments: region by region, what a region leaves in its output array
  is the stage (`Spec.lean`) of what it found, and what it found is the host arithmetic (`HostFn.lean`) of what the region
  before it left — so region 0 leaves the first hidden array, region 1 the second, and region 2 the edge scores of
  `Total.lean`.
-/
import proofs.«153595_j31662498906598_1_alg».proof.Proof.Gen.KernelIdeal.Frame
import proofs.«153595_j31662498906598_1_alg».proof.Proof.Total
import proofs.«153595_j31662498906598_1_alg».proof.Proof.Region0
import proofs.«153595_j31662498906598_1_alg».proof.Proof.Region1
import proofs.«153595_j31662498906598_1_alg».proof.Proof.Region2
import proofs.«153595_j31662498906598_1_alg».proof.Proof.HostK

set_option maxRecDepth 16384

noncomputable section

namespace Cert.KernelIdeal.KValue

open Cert.KernelIdeal Cert.KernelIdeal.Gen Cert.KernelIdeal.HostFn Idealize.ShloMosaic Idealize.ShloMosaic.TcCoe
open Idealize.SL.Sem Idealize.ShloMosaic.Pipeline

variable (m : (ℓ : Loc nD τ sig) → Buf (Elt Ideal) ℓ) (ρ : Dev nD → PrngReg) (c : Dev nD)

/-- Region 0 leaves the first hidden array. -/
theorem exit0 : V2 m ρ c main_v20
    = Cert.Sage.hidden1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  have e := Val0.final0 (V1 m ρ) c
  rw [HostK.V1_arg0 m ρ c, HostK.V1_v18 m ρ c, HostK.V1_arg3 m ρ c, HostK.V1_arg4 m ρ c, HostK.V1_v19 m ρ c] at e
  exact (hF0 m ρ c 5).symm.trans e

/-- Region 1 leaves the second hidden array. -/
theorem exit1 : V4 m ρ c main_v41
    = Cert.Sage.hidden2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  have e := Val1.final1 (V3 m ρ) c
  rw [HostK.V3_v20 m ρ c, HostK.V3_v39 m ρ c, HostK.V3_arg6 m ρ c, HostK.V3_arg7 m ρ c, HostK.V3_v40 m ρ c, exit0 m ρ c] at e
  exact (hF1 m ρ c 5).symm.trans e

/-- Region 2 leaves the edge scores: the program's result. -/
theorem exit2 : W6 m ρ c (Proc.devRef .tc main_v59)
    = Cert.Sage.score (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  have e := Val2.final2 (V5 m ρ) c
  rw [HostK.V5_v48 m ρ c, HostK.V5_v55 m ρ c, HostK.V5_v56 m ρ c, HostK.V5_v57 m ρ c, HostK.V5_v58 m ρ c, exit1 m ρ c] at e
  exact (hF2 m ρ c 5).symm.trans e

end Cert.KernelIdeal.KValue

end
-- ==== Proof.RefValue.lean ====
/-
  The reference program's stages are the network of `Total.lean`: its two hidden arrays and its edge scores, each read at
  an index at the ideal values, are the affine maps of `Spec.lean` over the same host arithmetic; the edge scorer's one
  product over the 256 joined columns splits into the source half and the destination half of the sum.
-/
import proofs.«153595_j31662498906598_1_alg».proof.Proof.Gen.ReferenceIdeal.Run
import proofs.«153595_j31662498906598_1_alg».proof.Proof.Gen.ReferenceIdeal.Read
import proofs.«153595_j31662498906598_1_alg».proof.Proof.Total
import proofs.«153595_j31662498906598_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Cert.ReferenceIdeal Cert.ReferenceIdeal.Read Idealize.ShloMosaic Idealize.ShloMosaic.TcCoe Idealize.ShloMosaic.ValueIdx

/-! ## The host arithmetic between the dense stages is the network's -/

section Host
variable {F : FTy → Type} [FloatOps F]

/-- The reference's first neighbourhood mean is the network's, operation for operation. -/
theorem agg1_eq (x0 : (⟨S100000x128, .f32⟩ : BufTy).Contents (Elt F)) (x1 x2 : (⟨S600000, .i32⟩ : BufTy).Contents (Elt F)) :
    val_main_v18 (F := F) x0 x1 x2 = Cert.KernelIdeal.HostFn.agg128 x0 x1 x2 := rfl

/-- The reference's second neighbourhood mean is the network's mean of the reference's first hidden array. -/
theorem agg2_eq (x0 : (⟨S100000x128, .f32⟩ : BufTy).Contents (Elt F)) (x1 x2 : (⟨S600000, .i32⟩ : BufTy).Contents (Elt F))
    (x3 x4 : (⟨S128x256, .f32⟩ : BufTy).Contents (Elt F)) (x5 : (⟨S256, .f32⟩ : BufTy).Contents (Elt F)) :
    val_main_v44 (F := F) x0 x1 x2 x3 x4 x5
      = Cert.KernelIdeal.HostFn.agg256 (val_main_v25 (F := F) x0 x1 x2 x3 x4 x5) x1 x2 := rfl

/-- The reference's source rows are the second hidden array's rows looked up at the source indices. -/
theorem src_eq (x0 : (⟨S100000x128, .f32⟩ : BufTy).Contents (Elt F)) (x1 x2 : (⟨S600000, .i32⟩ : BufTy).Contents (Elt F))
    (x3 x4 : (⟨S128x256, .f32⟩ : BufTy).Contents (Elt F)) (x5 : (⟨S256, .f32⟩ : BufTy).Contents (Elt F))
    (x6 x7 : (⟨S256x128, .f32⟩ : BufTy).Contents (Elt F)) (x8 : (⟨S128, .f32⟩ : BufTy).Contents (Elt F)) :
    val_main_v57 (F := F) x0 x1 x2 x3 x4 x5 x6 x7 x8
      = Cert.KernelIdeal.HostFn.rows128 (val_main_v50 (F := F) x0 x1 x2 x3 x4 x5 x6 x7 x8) x1 := rfl

/-- The reference's destination rows are the second hidden array's rows looked up at the destination indices. -/
theorem dst_eq (x0 : (⟨S100000x128, .f32⟩ : BufTy).Contents (Elt F)) (x1 x2 : (⟨S600000, .i32⟩ : BufTy).Contents (Elt F))
    (x3 x4 : (⟨S128x256, .f32⟩ : BufTy).Contents (Elt F)) (x5 : (⟨S256, .f32⟩ : BufTy).Contents (Elt F))
    (x6 x7 : (⟨S256x128, .f32⟩ : BufTy).Contents (Elt F)) (x8 : (⟨S128, .f32⟩ : BufTy).Contents (Elt F)) :
    val_main_v64 (F := F) x0 x1 x2 x3 x4 x5 x6 x7 x8
      = Cert.KernelIdeal.HostFn.rows128 (val_main_v50 (F := F) x0 x1 x2 x3 x4 x5 x6 x7 x8) x2 := rfl

end Host

/-! ## The dense stages at the ideal values -/

theorem lidx19 (i : S100000x256.Idx) (k : Fin 128) : lidx_main_v19 i k = ix2 (i 0) k :=
  funext fun a => Fin.ext (by match a with | ⟨0, _⟩ => rfl | ⟨1, _⟩ => rfl)
theorem ridx19 (i : S100000x256.Idx) (k : Fin 128) : ridx_main_v19 i k = ix2 k (i 1) :=
  funext fun a => Fin.ext (by match a with | ⟨0, _⟩ => rfl | ⟨1, _⟩ => rfl)
theorem lidx20 (i : S100000x256.Idx) (k : Fin 128) : lidx_main_v20 i k = ix2 (i 0) k :=
  funext fun a => Fin.ext (by match a with | ⟨0, _⟩ => rfl | ⟨1, _⟩ => rfl)
theorem ridx20 (i : S100000x256.Idx) (k : Fin 128) : ridx_main_v20 i k = ix2 k (i 1) :=
  funext fun a => Fin.ext (by match a with | ⟨0, _⟩ => rfl | ⟨1, _⟩ => rfl)
theorem bidx23 (i : S100000x256.Idx) : idx_main_v22 (idx_main_v23 i) = ix1 (i 1) :=
  funext fun a => Fin.ext (by match a with | ⟨0, _⟩ => rfl)

/-- The bias vector as a one-row matrix, read in its row. -/
theorem biasRow256_apply (b : (⟨S256, .f32⟩ : BufTy).Contents (Elt Ideal)) (c : Fin 256) :
    Cert.KernelIdeal.HostFn.biasRow256 b (ix2 (0 : Fin 1) c) = b (ix1 c) :=
  shapeCast_a_1a_apply b _ 0 c

/-- The reference's first hidden array is the network's. -/
theorem h1_eq (x0 : (⟨S100000x128, .f32⟩ : BufTy).Contents (Elt Ideal)) (x1 x2 : (⟨S600000, .i32⟩ : BufTy).Contents (Elt Ideal))
    (x3 x4 : (⟨S128x256, .f32⟩ : BufTy).Contents (Elt Ideal)) (x5 : (⟨S256, .f32⟩ : BufTy).Contents (Elt Ideal)) :
    val_main_v25 (F := Ideal) x0 x1 x2 x3 x4 x5 = Cert.Sage.hidden1 x0 x1 x2 x3 x4 x5 := by
  funext i
  rw [val_main_v25_apply, val_main_v24_apply, val_main_v21_apply, val_main_v19_apply, val_main_v20_apply,
    val_main_v23_apply, val_main_v22_apply, val_main_call0_v0_apply, val_main_call0_cst_apply, agg1_eq]
  simp only [lidx19, ridx19, lidx20, ridx20, bidx23]
  unfold Cert.Sage.hidden1 Cert.Sage.G0 Cert.Sage.affine
  exact congrArg₂ max (congrArg₂ (· + ·) rfl (biasRow256_apply x5 (i 1)).symm) rfl

theorem lidx45 (i : S100000x128.Idx) (k : Fin 256) : lidx_main_v45 i k = ix2 (i 0) k :=
  funext fun a => Fin.ext (by match a with | ⟨0, _⟩ => rfl | ⟨1, _⟩ => rfl)
theorem ridx45 (i : S100000x128.Idx) (k : Fin 256) : ridx_main_v45 i k = ix2 k (i 1) :=
  funext fun a => Fin.ext (by match a with | ⟨0, _⟩ => rfl | ⟨1, _⟩ => rfl)
theorem lidx46 (i : S100000x128.Idx) (k : Fin 256) : lidx_main_v46 i k = ix2 (i 0) k :=
  funext fun a => Fin.ext (by match a with | ⟨0, _⟩ => rfl | ⟨1, _⟩ => rfl)
theorem ridx46 (i : S100000x128.Idx) (k : Fin 256) : ridx_main_v46 i k = ix2 k (i 1) :=
  funext fun a => Fin.ext (by match a with | ⟨0, _⟩ => rfl | ⟨1, _⟩ => rfl)
theorem bidx49 (i : S100000x128.Idx) : idx_main_v48 (idx_main_v49 i) = ix1 (i 1) :=
  funext fun a => Fin.ext (by match a with | ⟨0, _⟩ => rfl)

theorem biasRow128_apply (b : (⟨S128, .f32⟩ : BufTy).Contents (Elt Ideal)) (c : Fin 128) :
    Cert.KernelIdeal.HostFn.biasRow128 b (ix2 (0 : Fin 1) c) = b (ix1 c) :=
  shapeCast_a_1a_apply b _ 0 c

/-- The reference's second hidden array is the network's. -/
theorem h2_eq (x0 : (⟨S100000x128, .f32⟩ : BufTy).Contents (Elt Ideal)) (x1 x2 : (⟨S600000, .i32⟩ : BufTy).Contents (Elt Ideal))
    (x3 x4 : (⟨S128x256, .f32⟩ : BufTy).Contents (Elt Ideal)) (x5 : (⟨S256, .f32⟩ : BufTy).Contents (Elt Ideal))
    (x6 x7 : (⟨S256x128, .f32⟩ : BufTy).Contents (Elt Ideal)) (x8 : (⟨S128, .f32⟩ : BufTy).Contents (Elt Ideal)) :
    val_main_v50 (F := Ideal) x0 x1 x2 x3 x4 x5 x6 x7 x8 = Cert.Sage.hidden2 x0 x1 x2 x3 x4 x5 x6 x7 x8 := by
  funext i
  rw [val_main_v50_apply, val_main_v47_apply, val_main_v45_apply, val_main_v46_apply, val_main_v49_apply,
    val_main_v48_apply, agg2_eq, h1_eq]
  simp only [lidx45, ridx45, lidx46, ridx46, bidx49]
  unfold Cert.Sage.hidden2 Cert.Sage.G1 Cert.Sage.affine
  exact congrArg₂ (· + ·) rfl (biasRow128_apply x8 (i 1)).symm

/-! ## The edge scorer: one product over the joined columns is the two halves' sum -/

theorem ridx66 (i : S600000x1.Idx) (k : Fin 256) : ridx_main_v66 i k = ix2 k (i 1) :=
  funext fun a => Fin.ext (by match a with | ⟨0, _⟩ => rfl | ⟨1, _⟩ => rfl)
theorem bidx68 (i : S600000x1.Idx) : idx_main_v67 (idx_main_v68 i) = ix1 (i 1) :=
  funext fun a => Fin.ext (by
    match a with
    | ⟨0, _⟩ =>
      have h : (i 1).val < 1 := (i 1).isLt
      show 0 = (i 1).val
      omega)

theorem biasRow1_apply (b : (⟨S1, .f32⟩ : BufTy).Contents (Elt Ideal)) (c : Fin 1) :
    Cert.KernelIdeal.HostFn.biasRow1 b (ix2 (0 : Fin 1) c) = b (ix1 c) :=
  shapeCast_a_1a_apply b _ 0 c

/-- The joined array's row against the 256-row weight column is the first piece's row against the column's upper
    half plus the second piece's row against its lower half. -/
theorem cat_sum (hs hd : (⟨S600000x128, .f32⟩ : BufTy).Contents (Elt Ideal)) (w : (⟨S256x1, .f32⟩ : BufTy).Contents (Elt Ideal))
    (h : Shape.Concatenates [S600000x128, S600000x128] S600000x256 1) (i : S600000x1.Idx) :
    (∑ k : Fin 256, concatenate S600000x256 1 [⟨S600000x128, hs⟩, ⟨S600000x128, hd⟩] h (lidx_main_v66 i k) * w (ridx_main_v66 i k))
      = (∑ k : Fin 128, hs (ix2 (i 0) k) * Cert.KernelIdeal.HostFn.wTop w (ix2 k (i 1)))
        + ∑ k : Fin 128, hd (ix2 (i 0) k) * Cert.KernelIdeal.HostFn.wBot w (ix2 k (i 1)) := by
  refine (Fin.sum_univ_add (a := 128) (b := 128) fun k =>
    concatenate S600000x256 1 [⟨S600000x128, hs⟩, ⟨S600000x128, hd⟩] h (lidx_main_v66 i k) * w (ridx_main_v66 i k)).trans ?_
  refine congrArg₂ (· + ·) (Finset.sum_congr rfl fun k _ => ?_) (Finset.sum_congr rfl fun k _ => ?_)
  · refine congrArg₂ (· * ·) ?_ ?_
    · exact concatenate_pair_apply_left 1 hs hd h _ rfl (ix2 (i 0) k) fun b => by
        match b with
        | ⟨0, _⟩ => rfl
        | ⟨1, _⟩ => rfl
    · rw [ridx66]
      exact (slice2_axis0_apply 0 w _ k (i 1) (Fin.castAdd 128 k) (Nat.zero_add _).symm).symm
  · refine congrArg₂ (· * ·) ?_ ?_
    · exact concatenate_pair_apply_right 1 hs hd h _ rfl rfl (ix2 (i 0) k) (fun b hb => by
        match b with
        | ⟨0, _⟩ => rfl
        | ⟨1, _⟩ => exact absurd rfl hb) (Nat.add_comm _ _)
    · rw [ridx66]
      exact (slice2_axis0_apply 128 w _ k (i 1) (Fin.natAdd 128 k) rfl).symm

/-- The reference's result, as a function of its eleven arguments at the ideal values, is the network's edge scores. -/
theorem ref_score
    (x0 : (⟨S100000x128, .f32⟩ : BufTy).Contents (Elt Ideal)) (x1 x2 : (⟨S600000, .i32⟩ : BufTy).Contents (Elt Ideal))
    (x3 x4 : (⟨S128x256, .f32⟩ : BufTy).Contents (Elt Ideal)) (x5 : (⟨S256, .f32⟩ : BufTy).Contents (Elt Ideal))
    (x6 x7 : (⟨S256x128, .f32⟩ : BufTy).Contents (Elt Ideal)) (x8 : (⟨S128, .f32⟩ : BufTy).Contents (Elt Ideal))
    (x9 : (⟨S256x1, .f32⟩ : BufTy).Contents (Elt Ideal)) (x10 : (⟨S1, .f32⟩ : BufTy).Contents (Elt Ideal)) :
    val_main_v69 (F := Ideal) x0 x1 x2 x3 x4 x5 x6 x7 x8 x9 x10 = Cert.Sage.score x0 x1 x2 x3 x4 x5 x6 x7 x8 x9 x10 := by
  funext i
  rw [val_main_v69_apply, val_main_v66_apply, val_main_v68_apply, val_main_v67_apply]
  unfold val_main_v65
  rw [cat_sum, src_eq, dst_eq, h2_eq, bidx68]
  unfold Cert.Sage.score Cert.Sage.G2 Cert.Sage.affine
  exact congrArg₂ (· + ·) rfl (biasRow1_apply x10 (i 1)).symm

end Cert.ReferenceIdeal.RefValue

end
-- ==== Proof.lean ====
/-
  The certificate of the two-layer neighbourhood-mean network with an edge scorer.

  Both programs apply the same host arithmetic (row lookups at the edge's source, sums into the edge's destination, the
  division by the in-degree); they differ in the three dense stages. The kernel program runs each as a tiled region: a
  block of rows times the two weight matrices, the bias row added (and, in layer one, the maximum with zero), the edge
  scorer with the weight column already cut into its upper and lower halves. The reference computes each as whole-array
  products; its edge scorer joins the source and destination rows side by side and multiplies by the uncut 256-row column.
  At the ideal values a change of float format is the identity and every product is the exact sum over the contracted
  axis, so each region's array is the stage of `Spec.lean` of the arrays it reads, and the reference's sum over 256 joined
  columns is the sum over the first 128 plus the sum over the last 128 (addition on the extended reals is associative
  and commutative; no law that fails at infinities is used, so the finiteness precondition is never opened).
  The frames of the two kernel programs are the generated ones; the reference's frame is its generated run with the
  result dropped; the idealization rewrote nothing, so `preserves` is trivial.
-/
import proofs.«153595_j31662498906598_1_alg».proof.Defs
import proofs.«153595_j31662498906598_1_alg».proof.Proof.Gen.Kernel
import proofs.«153595_j31662498906598_1_alg».proof.Proof.Gen.Kernel.Skeleton
import proofs.«153595_j31662498906598_1_alg».proof.Proof.Gen.Kernel.Launch
import proofs.«153595_j31662498906598_1_alg».proof.Proof.Gen.Kernel.Points
import proofs.«153595_j31662498906598_1_alg».proof.Proof.Gen.Kernel.Frame
import proofs.«153595_j31662498906598_1_alg».proof.Proof.Gen.KernelIdeal
import proofs.«153595_j31662498906598_1_alg».proof.Proof.Gen.KernelIdeal.Skeleton
import proofs.«153595_j31662498906598_1_alg».proof.Proof.Gen.KernelIdeal.Launch
import proofs.«153595_j31662498906598_1_alg».proof.Proof.Gen.KernelIdeal.Points
import proofs.«153595_j31662498906598_1_alg».proof.Proof.Gen.KernelIdeal.Frame
import proofs.«153595_j31662498906598_1_alg».proof.Proof.Gen.ReferenceIdeal
import proofs.«153595_j31662498906598_1_alg».proof.Proof.Gen.ReferenceIdeal.Run
import proofs.«153595_j31662498906598_1_alg».proof.Proof.Gen.ReferenceIdeal.Read
import proofs.«153595_j31662498906598_1_alg».proof.Proof.Gen.Pre_finite_inputs
import proofs.«153595_j31662498906598_1_alg».proof.Proof.RunNamed
import proofs.«153595_j31662498906598_1_alg».proof.Proof.KernelValue
import proofs.«153595_j31662498906598_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the edge scores of `Total.lean` in their
    result arrays: the kernel program by its regions' values, the reference by its stages read at an index. -/
theorem algebraic : Cert.algebraic_KernelIdeal_ReferenceIdeal := by
  intro m ρ m' ρ' _ hagree
  refine ⟨fun c => Cert.Sage.score
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KValue.exit2 m ρ c), (h c).2⟩)
      (Cert.KernelIdeal.GenP.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v69_eq, Cert.ReferenceIdeal.RefValue.ref_score]
    obtain ⟨e0, e1, e2, e3, e4, e5, e6, e7, e8, e9, e10⟩ := hagree c
    rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
